-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x65536x256 : Shape := ⟨3, ![8, 65536, 256]⟩
abbrev S8x256x256 : Shape := ⟨3, ![8, 256, 256]⟩
abbrev S8x256 : Shape := ⟨2, ![8, 256]⟩
abbrev S8x256x1 : Shape := ⟨3, ![8, 256, 1]⟩
abbrev S8x1 : Shape := ⟨2, ![8, 1]⟩
abbrev S_ : Shape := ⟨0, ![]⟩

class Facts : Prop where
  bcast_S_S8x65536x256 : S_.BroadcastsInDim S8x65536x256 (![] : Fin 0 → Fin S8x65536x256.rank)
  reducesTo_S8x65536x256_S_d0_1_2 : S8x65536x256.ReducesTo [0, 1, 2] S_
  h_S_ : 0 < S_.numel
  bcast_S_S8x256x256 : S_.BroadcastsInDim S8x256x256 (![] : Fin 0 → Fin S8x256x256.rank)
  reducesTo_S8x256x256_S_d0_1_2 : S8x256x256.ReducesTo [0, 1, 2] S_
  bcast_S_S8x256 : S_.BroadcastsInDim S8x256 (![] : Fin 0 → Fin S8x256.rank)
  reducesTo_S8x256_S_d0_1 : S8x256.ReducesTo [0, 1] S_
  bcast_S_S8x256x1 : S_.BroadcastsInDim S8x256x1 (![] : Fin 0 → Fin S8x256x1.rank)
  reducesTo_S8x256x1_S_d0_1_2 : S8x256x1.ReducesTo [0, 1, 2] S_
  bcast_S_S8x1 : S_.BroadcastsInDim S8x1 (![] : Fin 0 → Fin S8x1.rank)
  reducesTo_S8x1_S_d0_1 : S8x1.ReducesTo [0, 1] S_

variable [Facts]

def fn_part2 {F : FTy → Type} [FloatOps F] (main_arg7 : FVec F S8x256x1 .f32) (main_arg8 : FVec F S8x1 .f32) (main_v33 : IVec S_ 1) : IVec S_ 1 :=
  let main_v34 : FVec F S8x256x1 .f32 := Host.absf main_arg7
  let main_cst_12 : FVec F S_ .f32 := constant S_ .f32 0x7F800000#32
  let main_v35 : FVec F S8x256x1 .f32 := broadcastInDim S8x256x1 ![] bcast_S_S8x256x1 main_cst_12
  let main_v36 : IVec S8x256x1 1 := cmpf .olt main_v34 main_v35
  let main_c_13 : IVec S_ 1 := constantI S_ 1 1#1
  let main_v37 : IVec S_ 1 := (fun x v => Host.reduce IntOp.andi x v reducesTo_S8x256x1_S_d0_1_2 h_S_) main_v36 main_c_13
  let main_v38 : IVec S_ 1 := andi main_v33 main_v37
  let main_v39 : FVec F S8x1 .f32 := Host.absf main_arg8
  let main_cst_14 : FVec F S_ .f32 := constant S_ .f32 0x7F800000#32
  let main_v40 : FVec F S8x1 .f32 := broadcastInDim S8x1 ![] bcast_S_S8x1 main_cst_14
  let main_v41 : IVec S8x1 1 := cmpf .olt main_v39 main_v40
  let main_c_15 : IVec S_ 1 := constantI S_ 1 1#1
  let main_v42 : IVec S_ 1 := (fun x v => Host.reduce IntOp.andi x v reducesTo_S8x1_S_d0_1 h_S_) main_v41 main_c_15
  let main_v43 : IVec S_ 1 := andi main_v38 main_v42
  main_v43

def fn_part1 {F : FTy → Type} [FloatOps F] (main_arg4 : FVec F S8x256 .f32) (main_arg5 : FVec F S8x256x256 .f32) (main_arg6 : FVec F S8x256 .f32) (main_arg7 : FVec F S8x256x1 .f32) (main_arg8 : FVec F S8x1 .f32) (main_v13 : IVec S_ 1) (main_v16 : IVec S8x256x256 1) : IVec S_ 1 :=
  let main_c_5 : IVec S_ 1 := constantI S_ 1 1#1
  let main_v17 : IVec S_ 1 := (fun x v => Host.reduce IntOp.andi x v reducesTo_S8x256x256_S_d0_1_2 h_S_) main_v16 main_c_5
  let main_v18 : IVec S_ 1 := andi main_v13 main_v17
  let main_v19 : FVec F S8x256 .f32 := Host.absf main_arg4
  let main_cst_6 : FVec F S_ .f32 := constant S_ .f32 0x7F800000#32
  let main_v20 : FVec F S8x256 .f32 := broadcastInDim S8x256 ![] bcast_S_S8x256 main_cst_6
  let main_v21 : IVec S8x256 1 := cmpf .olt main_v19 main_v20
  let main_c_7 : IVec S_ 1 := constantI S_ 1 1#1
  let main_v22 : IVec S_ 1 := (fun x v => Host.reduce IntOp.andi x v reducesTo_S8x256_S_d0_1 h_S_) main_v21 main_c_7
  let main_v23 : IVec S_ 1 := andi main_v18 main_v22
  let main_v24 : FVec F S8x256x256 .f32 := Host.absf main_arg5
  let main_cst_8 : FVec F S_ .f32 := constant S_ .f32 0x7F800000#32
  let main_v25 : FVec F S8x256x256 .f32 := broadcastInDim S8x256x256 ![] bcast_S_S8x256x256 main_cst_8
  let main_v26 : IVec S8x256x256 1 := cmpf .olt main_v24 main_v25
  let main_c_9 : IVec S_ 1 := constantI S_ 1 1#1
  let main_v27 : IVec S_ 1 := (fun x v => Host.reduce IntOp.andi x v reducesTo_S8x256x256_S_d0_1_2 h_S_) main_v26 main_c_9
  let main_v28 : IVec S_ 1 := andi main_v23 main_v27
  let main_v29 : FVec F S8x256 .f32 := Host.absf main_arg6
  let main_cst_10 : FVec F S_ .f32 := constant S_ .f32 0x7F800000#32
  let main_v30 : FVec F S8x256 .f32 := broadcastInDim S8x256 ![] bcast_S_S8x256 main_cst_10
  let main_v31 : IVec S8x256 1 := cmpf .olt main_v29 main_v30
  let main_c_11 : IVec S_ 1 := constantI S_ 1 1#1
  let main_v32 : IVec S_ 1 := (fun x v => Host.reduce IntOp.andi x v reducesTo_S8x256_S_d0_1 h_S_) main_v31 main_c_11
  let main_v33 : IVec S_ 1 := andi main_v28 main_v32
  fn_part2 (F := F) main_arg7 main_arg8 main_v33

def fn {F : FTy → Type} [FloatOps F] (main_arg0 : FVec F S8x65536x256 .f32) (main_arg1 : FVec F S8x256x256 .f32) (main_arg2 : FVec F S8x256 .f32) (main_arg3 : FVec F S8x256x256 .f32) (main_arg4 : FVec F S8x256 .f32) (main_arg5 : FVec F S8x256x256 .f32) (main_arg6 : FVec F S8x256 .f32) (main_arg7 : FVec F S8x256x1 .f32) (main_arg8 : FVec F S8x1 .f32) : IVec S_ 1 :=
  let main_v0 : FVec F S8x65536x256 .f32 := Host.absf main_arg0
  let main_cst : FVec F S_ .f32 := constant S_ .f32 0x7F800000#32
  let main_v1 : FVec F S8x65536x256 .f32 := broadcastInDim S8x65536x256 ![] bcast_S_S8x65536x256 main_cst
  let main_v2 : IVec S8x65536x256 1 := cmpf .olt main_v0 main_v1
  let main_c : IVec S_ 1 := constantI S_ 1 1#1
  let main_v3 : IVec S_ 1 := (fun x v => Host.reduce IntOp.andi x v reducesTo_S8x65536x256_S_d0_1_2 h_S_) main_v2 main_c
  let main_v4 : FVec F S8x256x256 .f32 := Host.absf main_arg1
  let main_cst_0 : FVec F S_ .f32 := constant S_ .f32 0x7F800000#32
  let main_v5 : FVec F S8x256x256 .f32 := broadcastInDim S8x256x256 ![] bcast_S_S8x256x256 main_cst_0
  let main_v6 : IVec S8x256x256 1 := cmpf .olt main_v4 main_v5
  let main_c_1 : IVec S_ 1 := constantI S_ 1 1#1
  let main_v7 : IVec S_ 1 := (fun x v => Host.reduce IntOp.andi x v reducesTo_S8x256x256_S_d0_1_2 h_S_) main_v6 main_c_1
  let main_v8 : IVec S_ 1 := andi main_v3 main_v7
  let main_v9 : FVec F S8x256 .f32 := Host.absf main_arg2
  let main_cst_2 : FVec F S_ .f32 := constant S_ .f32 0x7F800000#32
  let main_v10 : FVec F S8x256 .f32 := broadcastInDim S8x256 ![] bcast_S_S8x256 main_cst_2
  let main_v11 : IVec S8x256 1 := cmpf .olt main_v9 main_v10
  let main_c_3 : IVec S_ 1 := constantI S_ 1 1#1
  let main_v12 : IVec S_ 1 := (fun x v => Host.reduce IntOp.andi x v reducesTo_S8x256_S_d0_1 h_S_) main_v11 main_c_3
  let main_v13 : IVec S_ 1 := andi main_v8 main_v12
  let main_v14 : FVec F S8x256x256 .f32 := Host.absf main_arg3
  let main_cst_4 : FVec F S_ .f32 := constant S_ .f32 0x7F800000#32
  let main_v15 : FVec F S8x256x256 .f32 := broadcastInDim S8x256x256 ![] bcast_S_S8x256x256 main_cst_4
  let main_v16 : IVec S8x256x256 1 := cmpf .olt main_v14 main_v15
  fn_part1 (F := F) main_arg4 main_arg5 main_arg6 main_arg7 main_arg8 main_v13 main_v16
-- ==== Kernel.lean ====
abbrev S8x65536x256 : Shape := ⟨3, ![8, 65536, 256]⟩
abbrev S8x256x256 : Shape := ⟨3, ![8, 256, 256]⟩
abbrev S8x256 : Shape := ⟨2, ![8, 256]⟩
abbrev S8x256x1 : Shape := ⟨3, ![8, 256, 1]⟩
abbrev S8x1 : Shape := ⟨2, ![8, 1]⟩
abbrev S8x1x256 : Shape := ⟨3, ![8, 1, 256]⟩
abbrev S8x1x1 : Shape := ⟨3, ![8, 1, 1]⟩
abbrev S65536x1 : Shape := ⟨2, ![65536, 1]⟩
abbrev S1x4096x256 : Shape := ⟨3, ![1, 4096, 256]⟩
abbrev S1x256x256 : Shape := ⟨3, ![1, 256, 256]⟩
abbrev S1x1x256 : Shape := ⟨3, ![1, 1, 256]⟩
abbrev S1x256x1 : Shape := ⟨3, ![1, 256, 1]⟩
abbrev S1x1x1 : Shape := ⟨3, ![1, 1, 1]⟩
abbrev S4096x1 : Shape := ⟨2, ![4096, 1]⟩
abbrev S4096x256 : Shape := ⟨2, ![4096, 256]⟩
abbrev S256x256 : Shape := ⟨2, ![256, 256]⟩
abbrev S1x256 : Shape := ⟨2, ![1, 256]⟩
abbrev S256x1 : Shape := ⟨2, ![256, 1]⟩
abbrev S1x1 : Shape := ⟨2, ![1, 1]⟩

abbrev nBuf : Space → Nat
  | .hbm => 14
  | .vmem => 20
  | .smem => 0
  | _ => 0

abbrev bufTy : (tb : Table) → Fin (tcTables nBuf tb) → BufTy
  | .hbm, ⟨0, _⟩ => ⟨S8x65536x256, .f32⟩
  | .hbm, ⟨1, _⟩ => ⟨S8x256x256, .f32⟩
  | .hbm, ⟨2, _⟩ => ⟨S8x256, .f32⟩
  | .hbm, ⟨3, _⟩ => ⟨S8x256x256, .f32⟩
  | .hbm, ⟨4, _⟩ => ⟨S8x256, .f32⟩
  | .hbm, ⟨5, _⟩ => ⟨S8x256x256, .f32⟩
  | .hbm, ⟨6, _⟩ => ⟨S8x256, .f32⟩
  | .hbm, ⟨7, _⟩ => ⟨S8x256x1, .f32⟩
  | .hbm, ⟨8, _⟩ => ⟨S8x1, .f32⟩
  | .hbm, ⟨9, _⟩ => ⟨S8x1x256, .f32⟩
  | .hbm, ⟨10, _⟩ => ⟨S8x1x256, .f32⟩
  | .hbm, ⟨11, _⟩ => ⟨S8x1x256, .f32⟩
  | .hbm, ⟨12, _⟩ => ⟨S8x1x1, .f32⟩
  | .hbm, ⟨13, _⟩ => ⟨S65536x1, .f32⟩
  | .local _ .vmem, ⟨0, _⟩ => ⟨S1x4096x256, .f32⟩
  | .local _ .vmem, ⟨1, _⟩ => ⟨S1x4096x256, .f32⟩
  | .local _ .vmem, ⟨2, _⟩ => ⟨S1x256x256, .f32⟩
  | .local _ .vmem, ⟨3, _⟩ => ⟨S1x256x256, .f32⟩
  | .local _ .vmem, ⟨4, _⟩ => ⟨S1x1x256, .f32⟩
  | .local _ .vmem, ⟨5, _⟩ => ⟨S1x1x256, .f32⟩
  | .local _ .vmem, ⟨6, _⟩ => ⟨S1x256x256, .f32⟩
  | .local _ .vmem, ⟨7, _⟩ => ⟨S1x256x256, .f32⟩
  | .local _ .vmem, ⟨8, _⟩ => ⟨S1x1x256, .f32⟩
  | .local _ .vmem, ⟨9, _⟩ => ⟨S1x1x256, .f32⟩
  | .local _ .vmem, ⟨10, _⟩ => ⟨S1x256x256, .f32⟩
  | .local _ .vmem, ⟨11, _⟩ => ⟨S1x256x256, .f32⟩
  | .local _ .vmem, ⟨12, _⟩ => ⟨S1x1x256, .f32⟩
  | .local _ .vmem, ⟨13, _⟩ => ⟨S1x1x256, .f32⟩
  | .local _ .vmem, ⟨14, _⟩ => ⟨S1x256x1, .f32⟩
  | .local _ .vmem, ⟨15, _⟩ => ⟨S1x256x1, .f32⟩
  | .local _ .vmem, ⟨16, _⟩ => ⟨S1x1x1, .f32⟩
  | .local _ .vmem, ⟨17, _⟩ => ⟨S1x1x1, .f32⟩
  | .local _ .vmem, ⟨18, _⟩ => ⟨S4096x1, .f32⟩
  | .local _ .vmem, ⟨19, _⟩ => ⟨S4096x1, .f32⟩
  | _, _ => ⟨S8x65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S4096x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  shapeCasts_S8x256_S8x1x256 : S8x256.ShapeCasts S8x1x256
  shapeCasts_S8x1_S8x1x1 : S8x1.ShapeCasts S8x1x1
  inb_S4096x1_S4096x1_0_0 : ∀ a, (![0, 0] : Fin 2 → Nat) a + S4096x1.size a ≤ S4096x1.size a
  h_S4096x1 : 0 < S4096x1.numel
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  bitsLt_bf16_f32 : FTy.bits .bf16 < FTy.bits .f32
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  broadcasts_S1x256_S4096x256 : S1x256.Broadcasts S4096x256
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  broadcasts_S1x1_S4096x1 : S1x1.Broadcasts S4096x1
  shapeCasts_S4096x1_S4096x1 : S4096x1.ShapeCasts S4096x1
  dot_S4096x256_S256x256_S4096x256_1_0_0_1_n_n_wf : DotDims.WF S4096x256 S256x256 S4096x256 [1] [0] [0] [1] [] []
  dot_S4096x256_S256x1_S4096x1_1_0_0_1_n_n_wf : DotDims.WF S4096x256 S256x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S8x65536x256.size a
  hwx0_0 : ∀ i : grid0.Coords, EltTy.bits .f32 = 32 ∨ (Rect.block (s := S8x65536x256) S1x4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x256.size a ≤ S8x256x256.size a
  hwx0_1 : ∀ i : grid0.Coords, EltTy.bits .f32 = 32 ∨ (Rect.block (s := S8x256x256) S1x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S8x1x256.size a
  hwx0_2 : ∀ i : grid0.Coords, EltTy.bits .f32 = 32 ∨ (Rect.block (s := S8x1x256) S1x1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x256.size a ≤ S8x256x256.size a
  hwx0_3 : ∀ i : grid0.Coords, EltTy.bits .f32 = 32 ∨ (Rect.block (s := S8x256x256) S1x256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256.size a ≤ S8x1x256.size a
  hwx0_4 : ∀ i : grid0.Coords, EltTy.bits .f32 = 32 ∨ (Rect.block (s := S8x1x256) S1x1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x256.size a ≤ S8x256x256.size a
  hwx0_5 : ∀ i : grid0.Coords, EltTy.bits .f32 = 32 ∨ (Rect.block (s := S8x256x256) S1x256x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x256.size a ≤ S8x1x256.size a
  hwx0_6 : ∀ i : grid0.Coords, EltTy.bits .f32 = 32 ∨ (Rect.block (s := S8x1x256) S1x1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256x1.size a ≤ S8x256x1.size a
  hwx0_7 : ∀ i : grid0.Coords, EltTy.bits .f32 = 32 ∨ (Rect.block (s := S8x256x1) S1x256x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x1.size a ≤ S8x1x1.size a
  hwx0_8 : ∀ i : grid0.Coords, EltTy.bits .f32 = 32 ∨ (Rect.block (s := S8x1x1) S1x1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4096x1.size a ≤ S65536x1.size a
  hwx0_9 : ∀ i : grid0.Coords, EltTy.bits .f32 = 32 ∨ (Rect.block (s := S65536x1) S4096x1.size (cc0_transform_9 i) (hinb0_9 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf

abbrev win0_0 : Pipeline.Window sig grid0 :=
  Pipeline.Window.ofSpec (Memref.whole main_arg0) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x256x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x1x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1x256x1.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x1x1.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v4) S4096x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8x65536x256 : Shape := ⟨3, ![8, 65536, 256]⟩
abbrev S8x256x256 : Shape := ⟨3, ![8, 256, 256]⟩
abbrev S8x256 : Shape := ⟨2, ![8, 256]⟩
abbrev S8x256x1 : Shape := ⟨3, ![8, 256, 1]⟩
abbrev S8x1 : Shape := ⟨2, ![8, 1]⟩
abbrev S8x1x256 : Shape := ⟨3, ![8, 1, 256]⟩
abbrev S_ : Shape := ⟨0, ![]⟩
abbrev S8x65536x1 : Shape := ⟨3, ![8, 65536, 1]⟩
abbrev S8x1x1 : Shape := ⟨3, ![8, 1, 1]⟩
abbrev S65536x1 : Shape := ⟨2, ![65536, 1]⟩

abbrev nBuf : Space → Nat
  | .hbm => 56
  | .vmem => 0
  | .smem => 0
  | _ => 0

abbrev bufTy : (tb : Table) → Fin (tcTables nBuf tb) → BufTy
  | .hbm, ⟨0, _⟩ => ⟨S8x65536x256, .f32⟩
  | .hbm, ⟨1, _⟩ => ⟨S8x256x256, .f32⟩
  | .hbm, ⟨2, _⟩ => ⟨S8x256, .f32⟩
  | .hbm, ⟨3, _⟩ => ⟨S8x256x256, .f32⟩
  | .hbm, ⟨4, _⟩ => ⟨S8x256, .f32⟩
  | .hbm, ⟨5, _⟩ => ⟨S8x256x256, .f32⟩
  | .hbm, ⟨6, _⟩ => ⟨S8x256, .f32⟩
  | .hbm, ⟨7, _⟩ => ⟨S8x256x1, .f32⟩
  | .hbm, ⟨8, _⟩ => ⟨S8x1, .f32⟩
  | .hbm, ⟨9, _⟩ => ⟨S8x65536x256, .f32⟩
  | .hbm, ⟨10, _⟩ => ⟨S8x1x256, .f32⟩
  | .hbm, ⟨11, _⟩ => ⟨S8x65536x256, .f32⟩
  | .hbm, ⟨12, _⟩ => ⟨S8x65536x256, .f32⟩
  | .hbm, ⟨13, _⟩ => ⟨S_, .f32⟩
  | .hbm, ⟨14, _⟩ => ⟨S8x65536x256, .f32⟩
  | .hbm, ⟨15, _⟩ => ⟨S8x65536x256, .i1⟩
  | .hbm, ⟨16, _⟩ => ⟨S_, .f32⟩
  | .hbm, ⟨17, _⟩ => ⟨S8x65536x256, .f32⟩
  | .hbm, ⟨18, _⟩ => ⟨S8x65536x256, .f32⟩
  | .hbm, ⟨19, _⟩ => ⟨S8x65536x256, .f32⟩
  | .hbm, ⟨20, _⟩ => ⟨S8x65536x256, .f32⟩
  | .hbm, ⟨21, _⟩ => ⟨S8x1x256, .f32⟩
  | .hbm, ⟨22, _⟩ => ⟨S8x65536x256, .f32⟩
  | .hbm, ⟨23, _⟩ => ⟨S8x65536x256, .f32⟩
  | .hbm, ⟨24, _⟩ => ⟨S_, .f32⟩
  | .hbm, ⟨25, _⟩ => ⟨S8x65536x256, .f32⟩
  | .hbm, ⟨26, _⟩ => ⟨S8x65536x256, .i1⟩
  | .hbm, ⟨27, _⟩ => ⟨S_, .f32⟩
  | .hbm, ⟨28, _⟩ => ⟨S8x65536x256, .f32⟩
  | .hbm, ⟨29, _⟩ => ⟨S8x65536x256, .f32⟩
  | .hbm, ⟨30, _⟩ => ⟨S8x65536x256, .f32⟩
  | .hbm, ⟨31, _⟩ => ⟨S8x65536x256, .f32⟩
  | .hbm, ⟨32, _⟩ => ⟨S8x1x256, .f32⟩
  | .hbm, ⟨33, _⟩ => ⟨S8x65536x256, .f32⟩
  | .hbm, ⟨34, _⟩ => ⟨S8x65536x256, .f32⟩
  | .hbm, ⟨35, _⟩ => ⟨S_, .f32⟩
  | .hbm, ⟨36, _⟩ => ⟨S8x65536x256, .f32⟩
  | .hbm, ⟨37, _⟩ => ⟨S8x65536x256, .i1⟩
  | .hbm, ⟨38, _⟩ => ⟨S_, .f32⟩
  | .hbm, ⟨39, _⟩ => ⟨S8x65536x256, .f32⟩
  | .hbm, ⟨40, _⟩ => ⟨S8x65536x256, .f32⟩
  | .hbm, ⟨41, _⟩ => ⟨S8x65536x256, .f32⟩
  | .hbm, ⟨42, _⟩ => ⟨S8x65536x1, .f32⟩
  | .hbm, ⟨43, _⟩ => ⟨S8x1x1, .f32⟩
  | .hbm, ⟨44, _⟩ => ⟨S8x65536x1, .f32⟩
  | .hbm, ⟨45, _⟩ => ⟨S8x65536x1, .f32⟩
  | .hbm, ⟨46, _⟩ => ⟨S_, .f32⟩
  | .hbm, ⟨47, _⟩ => ⟨S65536x1, .f32⟩
  | .hbm, ⟨48, _⟩ => ⟨S65536x1, .f32⟩
  | .hbm, ⟨49, _⟩ => ⟨S65536x1, .f32⟩
  | .hbm, ⟨50, _⟩ => ⟨S_, .f32⟩
  | .hbm, ⟨51, _⟩ => ⟨S65536x1, .f32⟩
  | .hbm, ⟨52, _⟩ => ⟨S65536x1, .f32⟩
  | .hbm, ⟨53, _⟩ => ⟨S_, .f32⟩
  | .hbm, ⟨54, _⟩ => ⟨S65536x1, .f32⟩
  | .hbm, ⟨55, _⟩ => ⟨S65536x1, .f32⟩
  | _, _ => ⟨S8x65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩

abbrev nD : Nat := 1
abbrev τ : Topo := Topo.v7x

variable {F : FTy → Type} [FloatOps F]

class Facts₀ : Prop where
  bcast_S8x256_S8x1x256_0_2 : S8x256.BroadcastsInDim S8x1x256 (![0, 2] : Fin 2 → Fin S8x1x256.rank)
  bcast_S8x1x256_S8x65536x256_0_1_2 : S8x1x256.BroadcastsInDim S8x65536x256 (![0, 1, 2] : Fin 3 → Fin S8x65536x256.rank)
  bcast_S_S8x65536x256 : S_.BroadcastsInDim S8x65536x256 (![] : Fin 0 → Fin S8x65536x256.rank)
  bcast_S8x1_S8x1x1_0_2 : S8x1.BroadcastsInDim S8x1x1 (![0, 2] : Fin 2 → Fin S8x1x1.rank)
  bcast_S8x1x1_S8x65536x1_0_1_2 : S8x1x1.BroadcastsInDim S8x65536x1 (![0, 1, 2] : Fin 3 → Fin S8x65536x1.rank)
  reducesTo_S8x65536x1_S65536x1_d0 : S8x65536x1.ReducesTo [0] S65536x1
  h_S_ : 0 < S_.numel
  bcast_S_S65536x1 : S_.BroadcastsInDim S65536x1 (![] : Fin 0 → Fin S65536x1.rank)
  dot_S8x65536x256_S8x256x256_S8x65536x256_2_1_1_2_0_0_wf : DotDims.WF S8x65536x256 S8x256x256 S8x65536x256 [2] [1] [1] [2] [0] [0]
  dot_S8x65536x256_S8x256x1_S8x65536x1_2_1_1_2_0_0_wf : DotDims.WF S8x65536x256 S8x256x1 S8x65536x1 [2] [1] [1] [2] [0] [0]

variable [Facts₀]

def dot_S8x65536x256_S8x256x256_S8x65536x256_2_1_1_2_0_0 : DotDims S8x65536x256 S8x256x256 S8x65536x256 where
  lhsContracting := [2]
  rhsContracting := [1]
  lhsNonContracting := [1]
  rhsNonContracting := [2]
  lhsBatch := [0]
  rhsBatch := [0]
  wf := dot_S8x65536x256_S8x256x256_S8x65536x256_2_1_1_2_0_0_wf
def dot_S8x65536x256_S8x256x1_S8x65536x1_2_1_1_2_0_0 : DotDims S8x65536x256 S8x256x1 S8x65536x1 where
  lhsContracting := [2]
  rhsContracting := [1]
  lhsNonContracting := [1]
  rhsNonContracting := [2]
  lhsBatch := [0]
  rhsBatch := [0]
  wf := dot_S8x65536x256_S8x256x1_S8x65536x1_2_1_1_2_0_0_wf

class Facts : Prop extends Facts₀ where

variable [Facts]
-- ==== Proof.MlpSpec.lean ====
/-
  What the network computes, index by index, over the extended reals.

  Eight species, each with its own three hidden layers of 256 units and a one-unit read-out; a row of the batch
  is sent through every species' network, the eight read-outs are added, and the logistic function is applied
  to the sum.  A hidden layer is  y ↦ act (∑ₖ yₖ · Wₖᵤ + βᵤ)  with  act  the leaky rectifier of slope `c`
  (the binary value both programs carry for one tenth): the value itself where it is at least zero, `c` times it
  elsewhere.
-/
import Idealize.ShloMosaic.PureOps.Ideal
import Idealize.ShloMosaic.Lib.ValueIdx

noncomputable section

namespace Cert.Mlp

open Idealize.ShloMosaic Idealize.ShloMosaic.ValueIdx

/-- The slope of the rectifier below zero: the binary32 value nearest one tenth, the same word in both programs. -/
abbrev slope : EReal := Ideal.ofBits .f32 0x3DCCCCCD#32

/-- The leaky rectifier on an extended real, spelled as a selection on the comparison with zero. -/
def act (y : EReal) : EReal :=
  Scalar.select (Ideal.cmp .oge y (Ideal.ofBits .f32 0x00000000#32)) y (slope * y)

/-- One affine map into 256 units followed by the rectifier: unit `u` of the image of the row `x`. -/
def layer (x : Fin 256 → EReal) (W : Fin 256 → Fin 256 → EReal) (β : Fin 256 → EReal) (u : Fin 256) : EReal :=
  act ((∑ k : Fin 256, x k * W k u) + β u)

section
variable (b : (⟨3, ![8, 65536, 256]⟩ : Shape).Idx → EReal)
  (W1 : (⟨3, ![8, 256, 256]⟩ : Shape).Idx → EReal) (b1 : (⟨2, ![8, 256]⟩ : Shape).Idx → EReal)
  (W2 : (⟨3, ![8, 256, 256]⟩ : Shape).Idx → EReal) (b2 : (⟨2, ![8, 256]⟩ : Shape).Idx → EReal)
  (W3 : (⟨3, ![8, 256, 256]⟩ : Shape).Idx → EReal) (b3 : (⟨2, ![8, 256]⟩ : Shape).Idx → EReal)
  (W4 : (⟨3, ![8, 256, 1]⟩ : Shape).Idx → EReal) (b4 : (⟨2, ![8, 1]⟩ : Shape).Idx → EReal)

/-- Species `s`, batch row `r`: the first hidden layer. -/
def hid1 (s : Fin 8) (r : Fin 65536) : Fin 256 → EReal :=
  layer (fun k => b (ix3 s r k)) (fun k u => W1 (ix3 s k u)) (fun u => b1 (ix2 s u))

/-- The second hidden layer. -/
def hid2 (s : Fin 8) (r : Fin 65536) : Fin 256 → EReal :=
  layer (hid1 b W1 b1 s r) (fun k u => W2 (ix3 s k u)) (fun u => b2 (ix2 s u))

/-- The third hidden layer. -/
def hid3 (s : Fin 8) (r : Fin 65536) : Fin 256 → EReal :=
  layer (hid2 b W1 b1 W2 b2 s r) (fun k u => W3 (ix3 s k u)) (fun u => b3 (ix2 s u))

/-- Species `s`'s read-out of batch row `r`: one affine map onto a single unit, no rectifier. -/
def readout (s : Fin 8) (r : Fin 65536) : EReal :=
  (∑ k : Fin 256, hid3 b W1 b1 W2 b2 W3 b3 s r k * W4 (ix3 s k (0 : Fin 1))) + b4 (ix2 s (0 : Fin 1))

/-- The result: at row `r` the logistic function of the eight read-outs' sum. -/
def result : (⟨2, ![65536, 1]⟩ : Shape).Idx → EReal := fun i =>
  Ideal.logistic (0 + ∑ s : Fin 8, readout b W1 b1 W2 b2 W3 b3 W4 b4 s (i 0))

end

end Cert.Mlp

end
-- ==== Proof.RefReads.lean ====
/-
  The reference program, read index by index, is `Cert.Mlp.result`.

  The reference multiplies the whole batch, all species at once, by each stacked weight array (a batched product:
  species is the batch axis, the middle axis of the weights is contracted), adds the bias broadcast over the batch
  rows, rectifies, and after the fourth product sums over the species axis and applies
  1 / (1 + exp (−·)).  Read at one index each stage is the corresponding line of the specification: the batched
  product at (s, r, u) is the sum over k of the left operand at (s, r, k) times the weights at (s, k, u); the
  broadcast bias at (s, r, u) is the bias at (s, u); and 1 / (1 + exp (−x)) is the logistic function of x.
-/
import proofs.«138767_j53979148976569_1_alg».proof.Proof.Gen.ReferenceIdeal.Read
import proofs.«138767_j53979148976569_1_alg».proof.Proof.MlpSpec

noncomputable section

namespace Cert.ReferenceIdeal.Spec

open Cert.ReferenceIdeal Cert.ReferenceIdeal.Read Idealize.ShloMosaic Idealize.ShloMosaic.ValueIdx Cert.Mlp

/-! ## Where each stage reads its operands -/

section Indices
variable (s : Fin 8) (r : Fin 65536) (u k : Fin 256) (z : Fin 1)

theorem lidx_a : lidx_main_v0 (ix3 s r u) k = ix3 s r k :=
  funext fun a => Fin.ext (by match a with | ⟨0, _⟩ => rfl | ⟨1, _⟩ => rfl | ⟨2, _⟩ => rfl)
theorem ridx_a : ridx_main_v0 (ix3 s r u) k = ix3 s k u :=
  funext fun a => Fin.ext (by match a with | ⟨0, _⟩ => rfl | ⟨1, _⟩ => rfl | ⟨2, _⟩ => rfl)
theorem bias_a : idx_main_v1 (idx_main_v2 (ix3 s r u)) = ix2 s u :=
  funext fun a => Fin.ext (by match a with | ⟨0, _⟩ => rfl | ⟨1, _⟩ => rfl)
theorem lidx_b : lidx_main_v9 (ix3 s r u) k = ix3 s r k :=
  funext fun a => Fin.ext (by match a with | ⟨0, _⟩ => rfl | ⟨1, _⟩ => rfl | ⟨2, _⟩ => rfl)
theorem ridx_b : ridx_main_v9 (ix3 s r u) k = ix3 s k u :=
  funext fun a => Fin.ext (by match a with | ⟨0, _⟩ => rfl | ⟨1, _⟩ => rfl | ⟨2, _⟩ => rfl)
theorem bias_b : idx_main_v10 (idx_main_v11 (ix3 s r u)) = ix2 s u :=
  funext fun a => Fin.ext (by match a with | ⟨0, _⟩ => rfl | ⟨1, _⟩ => rfl)
theorem lidx_c : lidx_main_v18 (ix3 s r u) k = ix3 s r k :=
  funext fun a => Fin.ext (by match a with | ⟨0, _⟩ => rfl | ⟨1, _⟩ => rfl | ⟨2, _⟩ => rfl)
theorem ridx_c : ridx_main_v18 (ix3 s r u) k = ix3 s k u :=
  funext fun a => Fin.ext (by match a with | ⟨0, _⟩ => rfl | ⟨1, _⟩ => rfl | ⟨2, _⟩ => rfl)
theorem bias_c : idx_main_v19 (idx_main_v20 (ix3 s r u)) = ix2 s u :=
  funext fun a => Fin.ext (by match a with | ⟨0, _⟩ => rfl | ⟨1, _⟩ => rfl)
theorem lidx_d : lidx_main_v27 (ix3 s r z) k = ix3 s r k :=
  funext fun a => Fin.ext (by match a with | ⟨0, _⟩ => rfl | ⟨1, _⟩ => rfl | ⟨2, _⟩ => rfl)
theorem ridx_d : ridx_main_v27 (ix3 s r z) k = ix3 s k z :=
  funext fun a => Fin.ext (by match a with | ⟨0, _⟩ => rfl | ⟨1, _⟩ => rfl | ⟨2, _⟩ => rfl)
theorem bias_d : idx_main_v28 (idx_main_v29 (ix3 s r z)) = ix2 s (0 : Fin 1) :=
  funext fun a => Fin.ext (by match a with | ⟨0, _⟩ => rfl | ⟨1, _⟩ => rfl)

end Indices

/-- The binary32 word of one denotes the real one. -/
theorem one_f32 : Ideal.ofBits .f32 0x3F800000#32 = 1 := IdealRules.sign_bit.ideal_onePat .f32

section Stages
variable (x0 : FVec Ideal S8x65536x256 .f32) (x1 : FVec Ideal S8x256x256 .f32) (x2 : FVec Ideal S8x256 .f32)
  (x3 : FVec Ideal S8x256x256 .f32) (x4 : FVec Ideal S8x256 .f32) (x5 : FVec Ideal S8x256x256 .f32)
  (x6 : FVec Ideal S8x256 .f32) (x7 : FVec Ideal S8x256x1 .f32) (x8 : FVec Ideal S8x1 .f32)

/-- The first rectified stage is the first hidden layer. -/
theorem stage_hid1 (s : Fin 8) (r : Fin 65536) (u : Fin 256) :
    val_main_v8 (F := Ideal) x0 x1 x2 (ix3 s r u) = hid1 x0 x1 x2 s r u := by
  rw [val_main_v8_apply, val_main_v5_apply, val_main_v7_apply, val_main_v3_apply, val_main_v0_apply, val_main_v2_apply,
    val_main_v1_apply, val_main_v4_apply, val_main_cst_apply, val_main_v6_apply, val_main_cst_0_apply]
  simp only [lidx_a, ridx_a, bias_a]
  unfold hid1 layer act
  rfl

/-- The second rectified stage is the second hidden layer. -/
theorem stage_hid2 (s : Fin 8) (r : Fin 65536) (u : Fin 256) :
    val_main_v17 (F := Ideal) x0 x1 x2 x3 x4 (ix3 s r u) = hid2 x0 x1 x2 x3 x4 s r u := by
  rw [val_main_v17_apply, val_main_v14_apply, val_main_v16_apply, val_main_v12_apply, val_main_v9_apply, val_main_v11_apply,
    val_main_v10_apply, val_main_v13_apply, val_main_cst_1_apply, val_main_v15_apply, val_main_cst_2_apply]
  simp only [lidx_b, ridx_b, bias_b, stage_hid1]
  unfold hid2 layer act
  rfl

/-- The third rectified stage is the third hidden layer. -/
theorem stage_hid3 (s : Fin 8) (r : Fin 65536) (u : Fin 256) :
    val_main_v26 (F := Ideal) x0 x1 x2 x3 x4 x5 x6 (ix3 s r u) = hid3 x0 x1 x2 x3 x4 x5 x6 s r u := by
  rw [val_main_v26_apply, val_main_v23_apply, val_main_v25_apply, val_main_v21_apply, val_main_v18_apply, val_main_v20_apply,
    val_main_v19_apply, val_main_v22_apply, val_main_cst_3_apply, val_main_v24_apply, val_main_cst_4_apply]
  simp only [lidx_c, ridx_c, bias_c, stage_hid2]
  unfold hid3 layer act
  rfl

/-- The fourth product plus its bias is the species' read-out. -/
theorem stage_readout (s : Fin 8) (r : Fin 65536) (z : Fin 1) :
    val_main_v30 (F := Ideal) x0 x1 x2 x3 x4 x5 x6 x7 x8 (ix3 s r z) = readout x0 x1 x2 x3 x4 x5 x6 x7 x8 s r := by
  have hz : z = 0 := Subsingleton.elim _ _
  subst hz
  rw [val_main_v30_apply, val_main_v27_apply, val_main_v29_apply, val_main_v28_apply]
  simp only [lidx_d, ridx_d, bias_d, stage_hid3]
  unfold readout
  rfl

/-- The reference's result array is the specification. -/
theorem stage_result : val_main_v37 (F := Ideal) x0 x1 x2 x3 x4 x5 x6 x7 x8 = result x0 x1 x2 x3 x4 x5 x6 x7 x8 := by
  funext i
  have hi : ∀ k : Fin 8, idx_main_v31 i k = ix3 k (i 0) (i 1) := fun k =>
    funext fun a => Fin.ext (by match a with | ⟨0, _⟩ => rfl | ⟨1, _⟩ => rfl | ⟨2, _⟩ => rfl)
  rw [val_main_v37_apply, val_main_v36_apply, val_main_cst_7_apply, val_main_v35_apply, val_main_v34_apply,
    val_main_cst_6_apply, val_main_v33_apply, val_main_v32_apply, val_main_v31_apply, val_main_cst_5_apply]
  simp only [hi, stage_readout]
  unfold result Ideal.logistic
  show Ideal.div (Ideal.ofBits .f32 0x3F800000#32)
      (Ideal.ofBits .f32 0x3F800000#32 + Ideal.exp (-(Ideal.ofBits .f32 0x00000000#32 + _))) = _
  rw [one_f32, Ideal.ofBits_zero_f32]
  refine congrArg (fun t => Ideal.div 1 (1 + Ideal.exp (-(0 + t)))) (Finset.sum_congr rfl fun k _ => ?_)
  exact stage_readout x0 x1 x2 x3 x4 x5 x6 x7 x8 k (i 0) (i 1)

end Stages

end Cert.ReferenceIdeal.Spec

end
-- ==== Proof.BlockLayer.lean ====
/-
  One grid point's arithmetic, read at an index over the extended reals.

  At a grid point the body holds a tile of 4096 batch rows and one species' weights.  Its two payloads are: the tile
  after the first two hidden layers, and the running sum of read-outs after the third hidden layer and the read-out
  have been added to it.  Both are read here entry by entry: a matrix product into a zero accumulator is the plain sum
  over the contracted axis, the bias row is the same for every batch row, narrowing to bfloat16 changes nothing, and
  the rectifier is the selection `Cert.Mlp.act`.
-/
import proofs.«138767_j53979148976569_1_alg».proof.Proof.Gen.KernelIdeal.Skeleton
import proofs.«138767_j53979148976569_1_alg».proof.Proof.MlpSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx Cert.Mlp

/-! ## The two matrix products' operand indices -/

theorem lhs_sq_0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide),
    dif_pos (show (0 : Fin S4096x256.rank) ∈ dot_S4096x256_S256x256_S4096x256_1_0_0_1_n_n.lhsNonContracting by decide)]
  rfl
theorem lhs_sq_1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
theorem rhs_sq_0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
theorem rhs_sq_1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide),
    dif_pos (show (1 : Fin S256x256.rank) ∈ dot_S4096x256_S256x256_S4096x256_1_0_0_1_n_n.rhsNonContracting by decide)]
  rfl

theorem lhs_col_0 (i : S4096x1.Idx) (q : dot_S4096x256_S256x1_S4096x1_1_0_0_1_n_n.contr.Idx) :
    (dot_S4096x256_S256x1_S4096x1_1_0_0_1_n_n.lhsIdx i q 0).val = (i 0).val := by
  unfold DotDims.lhsIdx
  rw [dif_neg (show ¬(0 : Fin S4096x256.rank) ∈ dot_S4096x256_S256x1_S4096x1_1_0_0_1_n_n.lhsBatch by decide),
    dif_pos (show (0 : Fin S4096x256.rank) ∈ dot_S4096x256_S256x1_S4096x1_1_0_0_1_n_n.lhsNonContracting by decide)]
  rfl
theorem lhs_col_1 (i : S4096x1.Idx) (q : dot_S4096x256_S256x1_S4096x1_1_0_0_1_n_n.contr.Idx) :
    (dot_S4096x256_S256x1_S4096x1_1_0_0_1_n_n.lhsIdx i q 1).val = (q ⟨0, by decide⟩).val :=
  dot_S4096x256_S256x1_S4096x1_1_0_0_1_n_n.lhsIdx_val_of_single rfl i q
theorem rhs_col_0 (i : S4096x1.Idx) (q : dot_S4096x256_S256x1_S4096x1_1_0_0_1_n_n.contr.Idx) :
    (dot_S4096x256_S256x1_S4096x1_1_0_0_1_n_n.rhsIdx i q 0).val = (q ⟨0, by decide⟩).val :=
  dot_S4096x256_S256x1_S4096x1_1_0_0_1_n_n.rhsIdx_val_of_single rfl i q
theorem rhs_col_1 (i : S4096x1.Idx) (q : dot_S4096x256_S256x1_S4096x1_1_0_0_1_n_n.contr.Idx) :
    (dot_S4096x256_S256x1_S4096x1_1_0_0_1_n_n.rhsIdx i q 1).val = (i 1).val := by
  unfold DotDims.rhsIdx
  rw [dif_neg (show ¬(1 : Fin S256x1.rank) ∈ dot_S4096x256_S256x1_S4096x1_1_0_0_1_n_n.rhsBatch by decide),
    dif_pos (show (1 : Fin S256x1.rank) ∈ dot_S4096x256_S256x1_S4096x1_1_0_0_1_n_n.rhsNonContracting by decide)]
  rfl

/-- A tile times a square weight matrix, into zero: entry (y, u) is the sum over k of tile (y, k) · weight (k, u). -/
theorem mm_sq_apply {φ₁ φ₂ : FTy} (X : FVec Ideal S4096x256 φ₁) (Wt : FVec Ideal S256x256 φ₂) (y : Fin 4096) (u : Fin 256) :
    matmul dot_S4096x256_S256x256_S4096x256_1_0_0_1_n_n none X Wt (constant S4096x256 .f32 0x00000000#32) (ix2 y u)
      = ∑ k : Fin 256, X (ix2 y k) * Wt (ix2 k u) := by
  simp only [matmul]
  rw [Ideal.matmul_constant_zero_apply,
    ← Equiv.sum_comp (ValueIdx.contrEquiv1 dot_S4096x256_S256x256_S4096x256_1_0_0_1_n_n 256 rfl rfl).symm]
  refine Finset.sum_congr rfl fun k _ => ?_
  have hk := ValueIdx.contrEquiv1_symm_val dot_S4096x256_S256x256_S4096x256_1_0_0_1_n_n 256 rfl rfl k
  have el : dot_S4096x256_S256x256_S4096x256_1_0_0_1_n_n.lhsIdx (ix2 y u)
      ((ValueIdx.contrEquiv1 dot_S4096x256_S256x256_S4096x256_1_0_0_1_n_n 256 rfl rfl).symm k) = ix2 y k :=
    funext fun a => Fin.ext (by
      match a with
      | ⟨0, _⟩ => exact lhs_sq_0 _ _
      | ⟨1, _⟩ => exact (lhs_sq_1 _ _).trans hk)
  have er : dot_S4096x256_S256x256_S4096x256_1_0_0_1_n_n.rhsIdx (ix2 y u)
      ((ValueIdx.contrEquiv1 dot_S4096x256_S256x256_S4096x256_1_0_0_1_n_n 256 rfl rfl).symm k) = ix2 k u :=
    funext fun a => Fin.ext (by
      match a with
      | ⟨0, _⟩ => exact (rhs_sq_0 _ _).trans hk
      | ⟨1, _⟩ => exact rhs_sq_1 _ _)
  rw [el, er]

/-- A tile times a one-column weight matrix, into zero: entry (y, z) is the sum over k of tile (y, k) · weight (k, z). -/
theorem mm_col_apply {φ₁ φ₂ : FTy} (X : FVec Ideal S4096x256 φ₁) (Wt : FVec Ideal S256x1 φ₂) (y : Fin 4096) (z : Fin 1) :
    matmul dot_S4096x256_S256x1_S4096x1_1_0_0_1_n_n none X Wt (constant S4096x1 .f32 0x00000000#32) (ix2 y z)
      = ∑ k : Fin 256, X (ix2 y k) * Wt (ix2 k z) := by
  simp only [matmul]
  rw [Ideal.matmul_constant_zero_apply,
    ← Equiv.sum_comp (ValueIdx.contrEquiv1 dot_S4096x256_S256x1_S4096x1_1_0_0_1_n_n 256 rfl rfl).symm]
  refine Finset.sum_congr rfl fun k _ => ?_
  have hk := ValueIdx.contrEquiv1_symm_val dot_S4096x256_S256x1_S4096x1_1_0_0_1_n_n 256 rfl rfl k
  have el : dot_S4096x256_S256x1_S4096x1_1_0_0_1_n_n.lhsIdx (ix2 y z)
      ((ValueIdx.contrEquiv1 dot_S4096x256_S256x1_S4096x1_1_0_0_1_n_n 256 rfl rfl).symm k) = ix2 y k :=
    funext fun a => Fin.ext (by
      match a with
      | ⟨0, _⟩ => exact lhs_col_0 _ _
      | ⟨1, _⟩ => exact (lhs_col_1 _ _).trans hk)
  have er : dot_S4096x256_S256x1_S4096x1_1_0_0_1_n_n.rhsIdx (ix2 y z)
      ((ValueIdx.contrEquiv1 dot_S4096x256_S256x1_S4096x1_1_0_0_1_n_n 256 rfl rfl).symm k) = ix2 k z :=
    funext fun a => Fin.ext (by
      match a with
      | ⟨0, _⟩ => exact (rhs_col_0 _ _).trans hk
      | ⟨1, _⟩ => exact rhs_col_1 _ _)
  rw [el, er]

/-! ## One hidden layer of the body -/

/-- A hidden layer as the body spells it: the tile times the species' weight block, plus its bias row, through the
    rectifier, narrowed to bfloat16. -/
def hidden (X : FVec Ideal S4096x256 .bf16) (w : Vec Ideal S1x256x256 .f32) (β : Vec Ideal S1x1x256 .f32) :
    FVec Ideal S4096x256 .bf16 :=
  have pre : FVec Ideal S4096x256 .f32 :=
    addf (matmul dot_S4096x256_S256x256_S4096x256_1_0_0_1_n_n none X
        (truncf .bf16 (shapeCast S256x256 w shapeCasts_S1x256x256_S256x256) bitsLt_bf16_f32) (constant S4096x256 .f32 0x00000000#32))
      (broadcastTo S4096x256 (shapeCast S1x256 β shapeCasts_S1x1x256_S1x256) broadcasts_S1x256_S4096x256)
  truncf .bf16 (select (cmpf .oge pre (broadcast S4096x256 (Scalar.ofBits .f32 0x00000000#32))) pre
    (mulf (broadcast S4096x256 (Scalar.ofBits .f32 0x3DCCCCCD#32)) pre)) bitsLt_bf16_f32

/-- Entry (y, u) of a hidden layer is `Cert.Mlp.layer` of row y of the tile, the weight block and the bias row. -/
theorem hidden_apply (X : FVec Ideal S4096x256 .bf16) (w : Vec Ideal S1x256x256 .f32) (β : Vec Ideal S1x1x256 .f32)
    (y : Fin 4096) (u : Fin 256) :
    hidden X w β (ix2 y u)
      = layer (fun k => X (ix2 y k)) (fun k u => w (ix3 (0 : Fin 1) k u)) (fun u => β (ix3 (0 : Fin 1) (0 : Fin 1) u)) u := by
  unfold hidden layer act
  simp only [truncf_apply, select_apply, cmpf_apply, mulf_apply, addf_apply, broadcast_apply]
  rw [mm_sq_apply, broadcastTo_1b_ab_apply, shapeCast_1ab_ab_apply]
  simp only [truncf_apply, shapeCast_1ab_ab_apply]
  rfl

/-- The first payload is two hidden layers over the tile as loaded. -/
theorem pay4_eq (x0 : Vec Ideal S1x4096x256 .f32) (x1 : Vec Ideal S1x256x256 .f32) (x2 : Vec Ideal S1x1x256 .f32)
    (x3 : Vec Ideal S1x256x256 .f32) (x4 : Vec Ideal S1x1x256 .f32) :
    k0_pay4 x0 x1 x2 x3 x4
      = hidden (hidden (truncf .bf16 (shapeCast S4096x256 x0 shapeCasts_S1x4096x256_S4096x256) bitsLt_bf16_f32) x1 x2) x3 x4 := rfl

/-- The second payload at (y, z): what the running sum held there, plus the read-out of the third hidden layer. -/
theorem pay1_apply (H : FVec Ideal S4096x256 .bf16) (x5 : Vec Ideal S1x256x256 .f32) (x6 : Vec Ideal S1x1x256 .f32)
    (x7 : Vec Ideal S1x256x1 .f32) (x8 : Vec Ideal S1x1x1 .f32) (acc : Vec Ideal S4096x1 .f32) (y : Fin 4096) (z : Fin 1) :
    k0_pay1 H x5 x6 x7 x8 acc (ix2 y z)
      = acc (ix2 y z) + ((∑ k : Fin 256, hidden H x5 x6 (ix2 y k) * x7 (ix3 (0 : Fin 1) k z))
          + x8 (ix3 (0 : Fin 1) (0 : Fin 1) z)) := by
  have e : k0_pay1 H x5 x6 x7 x8 acc
      = addf (shapeCast S4096x1 acc shapeCasts_S4096x1_S4096x1)
          (addf (matmul dot_S4096x256_S256x1_S4096x1_1_0_0_1_n_n none (hidden H x5 x6)
              (truncf .bf16 (shapeCast S256x1 x7 shapeCasts_S1x256x1_S256x1) bitsLt_bf16_f32) (constant S4096x1 .f32 0x00000000#32))
            (broadcastTo S4096x1 (shapeCast S1x1 x8 shapeCasts_S1x1x1_S1x1) broadcasts_S1x1_S4096x1)) := rfl
  rw [e, shapeCast_self]
  simp only [addf_apply]
  rw [mm_col_apply, broadcastTo_1b_ab_apply, shapeCast_1ab_ab_apply]
  simp only [truncf_apply, shapeCast_1ab_ab_apply]

/-- The reset payload is zero everywhere. -/
theorem pay3_apply (j : S4096x1.Idx) : k0_pay3 (F := Ideal) j = 0 := by
  show Ideal.ofBits .f32 0x00000000#32 = 0
  exact Ideal.ofBits_zero_f32

/-- The closing payload is the logistic function entry by entry. -/
theorem pay2_apply (v : Vec Ideal S4096x1 .f32) (j : S4096x1.Idx) : k0_pay2 v j = Ideal.logistic (v j) := by
  have e : k0_pay2 v = logistic (shapeCast S4096x1 v shapeCasts_S4096x1_S4096x1) := rfl
  rw [e, shapeCast_self]
  rfl

end Cert.KernelIdeal.Block

end
-- ==== Proof.BlockFold.lean ====
/-
  The grid's fold, read as the specification.

  The grid has 16 × 8 points; point n works on batch tile n / 8 and species n % 8.  The output block of a tile is set to
  zero at the tile's first point, every point adds its species' read-out of the tile's rows, and the last point of the
  tile applies the logistic function before the block is written back.  So the array ends holding, at row r, the
  logistic function of  0 + (read-out of species 0 + … + read-out of species 7)  at r.
-/
import proofs.«138767_j53979148976569_1_alg».proof.Proof.Gen.KernelIdeal.Value
import proofs.«138767_j53979148976569_1_alg».proof.Proof.BlockLayer
import Idealize.ShloMosaic.Lib.Pipeline.Value
import Idealize.ShloMosaic.Lib.StableHlo.Run

noncomputable section

namespace Cert.KernelIdeal.Fold

open Cert.KernelIdeal Cert.KernelIdeal.Gen Cert.KernelIdeal.Block Idealize.ShloMosaic Idealize.ShloMosaic.TcCoe
open Idealize.ShloMosaic.ValueIdx Idealize.ShloMosaic.StableHlo Idealize.SL.Sem Cert.Mlp

variable (m : (ℓ : Loc nD τ sig) → Buf (Elt Ideal) ℓ)

/-! ## Which block of its array each window holds at a point -/

theorem widx0 : ∀ t : Fin cfg0.N, win0_0.index t (0 : Fin 3) = t.val % 8 ∧ win0_0.index t (1 : Fin 3) = t.val / 8 ∧ win0_0.index t (2 : Fin 3) = 0 :=
  (by decide +kernel : ∀ t : Fin grid0.N, _)
theorem widx1 : ∀ t : Fin cfg0.N, win0_1.index t (0 : Fin 3) = t.val % 8 ∧ win0_1.index t (1 : Fin 3) = 0 ∧ win0_1.index t (2 : Fin 3) = 0 :=
  (by decide +kernel : ∀ t : Fin grid0.N, _)
theorem widx2 : ∀ t : Fin cfg0.N, win0_2.index t (0 : Fin 3) = t.val % 8 ∧ win0_2.index t (1 : Fin 3) = 0 ∧ win0_2.index t (2 : Fin 3) = 0 :=
  (by decide +kernel : ∀ t : Fin grid0.N, _)
theorem widx3 : ∀ t : Fin cfg0.N, win0_3.index t (0 : Fin 3) = t.val % 8 ∧ win0_3.index t (1 : Fin 3) = 0 ∧ win0_3.index t (2 : Fin 3) = 0 :=
  (by decide +kernel : ∀ t : Fin grid0.N, _)
theorem widx4 : ∀ t : Fin cfg0.N, win0_4.index t (0 : Fin 3) = t.val % 8 ∧ win0_4.index t (1 : Fin 3) = 0 ∧ win0_4.index t (2 : Fin 3) = 0 :=
  (by decide +kernel : ∀ t : Fin grid0.N, _)
theorem widx5 : ∀ t : Fin cfg0.N, win0_5.index t (0 : Fin 3) = t.val % 8 ∧ win0_5.index t (1 : Fin 3) = 0 ∧ win0_5.index t (2 : Fin 3) = 0 :=
  (by decide +kernel : ∀ t : Fin grid0.N, _)
theorem widx6 : ∀ t : Fin cfg0.N, win0_6.index t (0 : Fin 3) = t.val % 8 ∧ win0_6.index t (1 : Fin 3) = 0 ∧ win0_6.index t (2 : Fin 3) = 0 :=
  (by decide +kernel : ∀ t : Fin grid0.N, _)
theorem widx7 : ∀ t : Fin cfg0.N, win0_7.index t (0 : Fin 3) = t.val % 8 ∧ win0_7.index t (1 : Fin 3) = 0 ∧ win0_7.index t (2 : Fin 3) = 0 :=
  (by decide +kernel : ∀ t : Fin grid0.N, _)
theorem widx8 : ∀ t : Fin cfg0.N, win0_8.index t (0 : Fin 3) = t.val % 8 ∧ win0_8.index t (1 : Fin 3) = 0 ∧ win0_8.index t (2 : Fin 3) = 0 :=
  (by decide +kernel : ∀ t : Fin grid0.N, _)

/-! ## The bias arrays the region finds: the arguments with a unit axis put in -/

theorem V_biasA (c : Dev nD) : (V m c main_v0 : S8x1x256.Idx → EReal)
    = shapeCast S8x1x256 (m ((c : Thread nD τ).loc main_arg2)) shapeCasts_S8x256_S8x1x256 := by
  dsimp only [V, hostOps0]; after_results; rfl
theorem V_biasB (c : Dev nD) : (V m c main_v1 : S8x1x256.Idx → EReal)
    = shapeCast S8x1x256 (m ((c : Thread nD τ).loc main_arg4)) shapeCasts_S8x256_S8x1x256 := by
  dsimp only [V, hostOps0]; after_results; rfl
theorem V_biasC (c : Dev nD) : (V m c main_v2 : S8x1x256.Idx → EReal)
    = shapeCast S8x1x256 (m ((c : Thread nD τ).loc main_arg6)) shapeCasts_S8x256_S8x1x256 := by
  dsimp only [V, hostOps0]; after_results; rfl
theorem V_biasD (c : Dev nD) : (V m c main_v3 : S8x1x1.Idx → EReal)
    = shapeCast S8x1x1 (m ((c : Thread nD τ).loc main_arg8)) shapeCasts_S8x1_S8x1x1 := by
  dsimp only [V, hostOps0]; after_results; rfl

/-! ## The blocks at a point, by their literal types -/

abbrev tile (c : Dev nD) (t : Fin cfg0.N) : Vec Ideal S1x4096x256 .f32 := iblk m c 0 t
abbrev wA (c : Dev nD) (t : Fin cfg0.N) : Vec Ideal S1x256x256 .f32 := iblk m c 1 t
abbrev bA (c : Dev nD) (t : Fin cfg0.N) : Vec Ideal S1x1x256 .f32 := iblk m c 2 t
abbrev wB (c : Dev nD) (t : Fin cfg0.N) : Vec Ideal S1x256x256 .f32 := iblk m c 3 t
abbrev bB (c : Dev nD) (t : Fin cfg0.N) : Vec Ideal S1x1x256 .f32 := iblk m c 4 t
abbrev wC (c : Dev nD) (t : Fin cfg0.N) : Vec Ideal S1x256x256 .f32 := iblk m c 5 t
abbrev bC (c : Dev nD) (t : Fin cfg0.N) : Vec Ideal S1x1x256 .f32 := iblk m c 6 t
abbrev wD (c : Dev nD) (t : Fin cfg0.N) : Vec Ideal S1x256x1 .f32 := iblk m c 7 t
abbrev bD (c : Dev nD) (t : Fin cfg0.N) : Vec Ideal S1x1x1 .f32 := iblk m c 8 t

section Reads
variable (c : Dev nD) (t : Fin cfg0.N) (s : Fin 8)

/-- The batch tile at a point: rows 4096 · (t / 8) … of species t % 8. -/
theorem tile_apply (hs : s.val = t.val % 8) (z : Fin 1) (y : Fin 4096) (k : Fin 256) (r : Fin 65536) (hr : r.val = 4096 * (t.val / 8) + y.val) :
    tile m c t (ix3 z y k) = m ((c : Thread nD τ).loc main_arg0) (ix3 s r k) := by
  obtain ⟨e0, e1, e2⟩ := widx0 t
  unfold tile iblk
  rw [View.read_apply]
  show V m c main_arg0 _ = _
  rw [V_main_arg0]
  refine congrArg _ (funext fun a => Fin.ext ?_)
  match a with
  | ⟨0, _⟩ => show win0_0.index t (0 : Fin 3) * 1 + 1 * z.val = s.val; rw [e0, hs]; omega
  | ⟨1, _⟩ => show win0_0.index t (1 : Fin 3) * 4096 + 1 * y.val = r.val; rw [e1, hr]; omega
  | ⟨2, _⟩ => show win0_0.index t (2 : Fin 3) * 256 + 1 * k.val = k.val; rw [e2]; omega

/-- A square weight block at a point: species t % 8's matrix. -/
theorem wA_apply (hs : s.val = t.val % 8) (z : Fin 1) (k u : Fin 256) :
    wA m c t (ix3 z k u) = m ((c : Thread nD τ).loc main_arg1) (ix3 s k u) := by
  obtain ⟨e0, e1, e2⟩ := widx1 t
  unfold wA iblk
  rw [View.read_apply]
  show V m c main_arg1 _ = _
  rw [V_main_arg1]
  refine congrArg _ (funext fun a => Fin.ext ?_)
  match a with
  | ⟨0, _⟩ => show win0_1.index t (0 : Fin 3) * 1 + 1 * z.val = s.val; rw [e0, hs]; omega
  | ⟨1, _⟩ => show win0_1.index t (1 : Fin 3) * 256 + 1 * k.val = k.val; rw [e1]; omega
  | ⟨2, _⟩ => show win0_1.index t (2 : Fin 3) * 256 + 1 * u.val = u.val; rw [e2]; omega

/-- A square weight block at a point: species t % 8's matrix. -/
theorem wB_apply (hs : s.val = t.val % 8) (z : Fin 1) (k u : Fin 256) :
    wB m c t (ix3 z k u) = m ((c : Thread nD τ).loc main_arg3) (ix3 s k u) := by
  obtain ⟨e0, e1, e2⟩ := widx3 t
  unfold wB iblk
  rw [View.read_apply]
  show V m c main_arg3 _ = _
  rw [V_main_arg3]
  refine congrArg _ (funext fun a => Fin.ext ?_)
  match a with
  | ⟨0, _⟩ => show win0_3.index t (0 : Fin 3) * 1 + 1 * z.val = s.val; rw [e0, hs]; omega
  | ⟨1, _⟩ => show win0_3.index t (1 : Fin 3) * 256 + 1 * k.val = k.val; rw [e1]; omega
  | ⟨2, _⟩ => show win0_3.index t (2 : Fin 3) * 256 + 1 * u.val = u.val; rw [e2]; omega

/-- A square weight block at a point: species t % 8's matrix. -/
theorem wC_apply (hs : s.val = t.val % 8) (z : Fin 1) (k u : Fin 256) :
    wC m c t (ix3 z k u) = m ((c : Thread nD τ).loc main_arg5) (ix3 s k u) := by
  obtain ⟨e0, e1, e2⟩ := widx5 t
  unfold wC iblk
  rw [View.read_apply]
  show V m c main_arg5 _ = _
  rw [V_main_arg5]
  refine congrArg _ (funext fun a => Fin.ext ?_)
  match a with
  | ⟨0, _⟩ => show win0_5.index t (0 : Fin 3) * 1 + 1 * z.val = s.val; rw [e0, hs]; omega
  | ⟨1, _⟩ => show win0_5.index t (1 : Fin 3) * 256 + 1 * k.val = k.val; rw [e1]; omega
  | ⟨2, _⟩ => show win0_5.index t (2 : Fin 3) * 256 + 1 * u.val = u.val; rw [e2]; omega

/-- A bias block at a point: species t % 8's row. -/
theorem bA_apply (hs : s.val = t.val % 8) (z z' : Fin 1) (u : Fin 256) :
    bA m c t (ix3 z z' u) = m ((c : Thread nD τ).loc main_arg2) (ix2 s u) := by
  obtain ⟨e0, e1, e2⟩ := widx2 t
  unfold bA iblk
  rw [View.read_apply]
  show V m c main_v0 _ = _
  rw [V_biasA]
  refine shapeCast_apply _ _ _ _ ?_
  show ((⟨2, ![8, 256]⟩ : Shape).rowMajor (ix2 s u)).val = ((⟨3, ![8, 1, 256]⟩ : Shape).rowMajor _).val
  rw [Shape.rowMajor_val_three, Shape.rowMajor_val_two]
  show s.val * 256 + u.val
    = ((win0_2.index t (0 : Fin 3) * 1 + 1 * z.val) * 1 + (win0_2.index t (1 : Fin 3) * 1 + 1 * z'.val)) * 256
      + (win0_2.index t (2 : Fin 3) * 256 + 1 * u.val)
  rw [e0, e1, e2, hs]; omega

/-- A bias block at a point: species t % 8's row. -/
theorem bB_apply (hs : s.val = t.val % 8) (z z' : Fin 1) (u : Fin 256) :
    bB m c t (ix3 z z' u) = m ((c : Thread nD τ).loc main_arg4) (ix2 s u) := by
  obtain ⟨e0, e1, e2⟩ := widx4 t
  unfold bB iblk
  rw [View.read_apply]
  show V m c main_v1 _ = _
  rw [V_biasB]
  refine shapeCast_apply _ _ _ _ ?_
  show ((⟨2, ![8, 256]⟩ : Shape).rowMajor (ix2 s u)).val = ((⟨3, ![8, 1, 256]⟩ : Shape).rowMajor _).val
  rw [Shape.rowMajor_val_three, Shape.rowMajor_val_two]
  show s.val * 256 + u.val
    = ((win0_4.index t (0 : Fin 3) * 1 + 1 * z.val) * 1 + (win0_4.index t (1 : Fin 3) * 1 + 1 * z'.val)) * 256
      + (win0_4.index t (2 : Fin 3) * 256 + 1 * u.val)
  rw [e0, e1, e2, hs]; omega

/-- A bias block at a point: species t % 8's row. -/
theorem bC_apply (hs : s.val = t.val % 8) (z z' : Fin 1) (u : Fin 256) :
    bC m c t (ix3 z z' u) = m ((c : Thread nD τ).loc main_arg6) (ix2 s u) := by
  obtain ⟨e0, e1, e2⟩ := widx6 t
  unfold bC iblk
  rw [View.read_apply]
  show V m c main_v2 _ = _
  rw [V_biasC]
  refine shapeCast_apply _ _ _ _ ?_
  show ((⟨2, ![8, 256]⟩ : Shape).rowMajor (ix2 s u)).val = ((⟨3, ![8, 1, 256]⟩ : Shape).rowMajor _).val
  rw [Shape.rowMajor_val_three, Shape.rowMajor_val_two]
  show s.val * 256 + u.val
    = ((win0_6.index t (0 : Fin 3) * 1 + 1 * z.val) * 1 + (win0_6.index t (1 : Fin 3) * 1 + 1 * z'.val)) * 256
      + (win0_6.index t (2 : Fin 3) * 256 + 1 * u.val)
  rw [e0, e1, e2, hs]; omega

/-- The read-out weight block at a point: species t % 8's column. -/
theorem wD_apply (hs : s.val = t.val % 8) (z z' : Fin 1) (k : Fin 256) :
    wD m c t (ix3 z k z') = m ((c : Thread nD τ).loc main_arg7) (ix3 s k z') := by
  obtain ⟨e0, e1, e2⟩ := widx7 t
  unfold wD iblk
  rw [View.read_apply]
  show V m c main_arg7 _ = _
  rw [V_main_arg7]
  refine congrArg _ (funext fun a => Fin.ext ?_)
  match a with
  | ⟨0, _⟩ => show win0_7.index t (0 : Fin 3) * 1 + 1 * z.val = s.val; rw [e0, hs]; omega
  | ⟨1, _⟩ => show win0_7.index t (1 : Fin 3) * 256 + 1 * k.val = k.val; rw [e1]; omega
  | ⟨2, _⟩ => show win0_7.index t (2 : Fin 3) * 1 + 1 * z'.val = z'.val; rw [e2]; omega

/-- The read-out bias block at a point: species t % 8's one number. -/
theorem bD_apply (hs : s.val = t.val % 8) (z z' z'' : Fin 1) :
    bD m c t (ix3 z z' z'') = m ((c : Thread nD τ).loc main_arg8) (ix2 s z'') := by
  obtain ⟨e0, e1, e2⟩ := widx8 t
  unfold bD iblk
  rw [View.read_apply]
  show V m c main_v3 _ = _
  rw [V_biasD]
  refine shapeCast_apply _ _ _ _ ?_
  show ((⟨2, ![8, 1]⟩ : Shape).rowMajor (ix2 s z'')).val = ((⟨3, ![8, 1, 1]⟩ : Shape).rowMajor _).val
  rw [Shape.rowMajor_val_three, Shape.rowMajor_val_two]
  show s.val * 1 + z''.val
    = ((win0_8.index t (0 : Fin 3) * 1 + 1 * z.val) * 1 + (win0_8.index t (1 : Fin 3) * 1 + 1 * z'.val)) * 1
      + (win0_8.index t (2 : Fin 3) * 1 + 1 * z''.val)
  rw [e0, e1, e2, hs]; omega

end Reads

/-! ## A point's arithmetic over the argument arrays -/

section Point
variable (c : Dev nD)

/-- The argument arrays, in the specification's order. -/
abbrev inB : FVec Ideal S8x65536x256 .f32 := m ((c : Thread nD τ).loc main_arg0)
abbrev inW1 : FVec Ideal S8x256x256 .f32 := m ((c : Thread nD τ).loc main_arg1)
abbrev inb1 : FVec Ideal S8x256 .f32 := m ((c : Thread nD τ).loc main_arg2)
abbrev inW2 : FVec Ideal S8x256x256 .f32 := m ((c : Thread nD τ).loc main_arg3)
abbrev inb2 : FVec Ideal S8x256 .f32 := m ((c : Thread nD τ).loc main_arg4)
abbrev inW3 : FVec Ideal S8x256x256 .f32 := m ((c : Thread nD τ).loc main_arg5)
abbrev inb3 : FVec Ideal S8x256 .f32 := m ((c : Thread nD τ).loc main_arg6)
abbrev inW4 : FVec Ideal S8x256x1 .f32 := m ((c : Thread nD τ).loc main_arg7)
abbrev inb4 : FVec Ideal S8x1 .f32 := m ((c : Thread nD τ).loc main_arg8)

variable (t : Fin cfg0.N) (s : Fin 8) (y : Fin 4096) (r : Fin 65536)

/-- The tile as the body first narrows it. -/
abbrev tile16 : FVec Ideal S4096x256 .bf16 :=
  truncf .bf16 (shapeCast S4096x256 (tile m c t) shapeCasts_S1x4096x256_S4096x256) bitsLt_bf16_f32

/-- Row y of the first hidden layer at the point is the specification's first hidden layer at the tile's row. -/
theorem rowA (hs : s.val = t.val % 8) (hr : r.val = 4096 * (t.val / 8) + y.val) :
    (fun u => hidden (tile16 m c t) (wA m c t) (bA m c t) (ix2 y u)) = hid1 (inB m c) (inW1 m c) (inb1 m c) s r := by
  funext u
  rw [hidden_apply (tile16 m c t) (wA m c t) (bA m c t) y u]
  unfold hid1
  congr 1
  · funext k
    exact (shapeCast_1ab_ab_apply (tile m c t) shapeCasts_S1x4096x256_S4096x256 y k).trans (tile_apply m c t s hs 0 y k r hr)
  · funext k u'
    exact wA_apply m c t s hs 0 k u'
  · funext u'
    exact bA_apply m c t s hs 0 0 u'

/-- … the second … -/
theorem rowB (hs : s.val = t.val % 8) (hr : r.val = 4096 * (t.val / 8) + y.val) :
    (fun u => hidden (hidden (tile16 m c t) (wA m c t) (bA m c t)) (wB m c t) (bB m c t) (ix2 y u))
    = hid2 (inB m c) (inW1 m c) (inb1 m c) (inW2 m c) (inb2 m c) s r := by
  funext u
  rw [hidden_apply (hidden (tile16 m c t) (wA m c t) (bA m c t)) (wB m c t) (bB m c t) y u]
  unfold hid2
  congr 1
  · exact rowA m c t s y r hs hr
  · funext k u'
    exact wB_apply m c t s hs 0 k u'
  · funext u'
    exact bB_apply m c t s hs 0 0 u'

/-- … and the third. -/
theorem rowC (hs : s.val = t.val % 8) (hr : r.val = 4096 * (t.val / 8) + y.val) :
    (fun u => hidden (hidden (hidden (tile16 m c t) (wA m c t) (bA m c t)) (wB m c t) (bB m c t)) (wC m c t) (bC m c t) (ix2 y u))
    = hid3 (inB m c) (inW1 m c) (inb1 m c) (inW2 m c) (inb2 m c) (inW3 m c) (inb3 m c) s r := by
  funext u
  rw [hidden_apply (hidden (hidden (tile16 m c t) (wA m c t) (bA m c t)) (wB m c t) (bB m c t)) (wC m c t) (bC m c t) y u]
  unfold hid3
  congr 1
  · exact rowB m c t s y r hs hr
  · funext k u'
    exact wC_apply m c t s hs 0 k u'
  · funext u'
    exact bC_apply m c t s hs 0 0 u'

end Point

/-- What point n adds to row j of its tile's block: the read-out of species n % 8 at batch row 4096 · (n / 8) + j
    (zero past the grid, where it is never used). -/
def addend (c : Dev nD) (n : ℕ) (j : S4096x1.Idx) : EReal :=
  if h : n < 128 then
    readout (inB m c) (inW1 m c) (inb1 m c) (inW2 m c) (inb2 m c) (inW3 m c) (inb3 m c) (inW4 m c) (inb4 m c)
      ⟨n % 8, Nat.mod_lt _ (by decide)⟩
      ⟨4096 * (n / 8) + (j 0).val, by have := idx2_lt0 j; omega⟩
  else 0

/-- The adding payload at a point: what the block held, plus the point's addend. -/
theorem pay_point (c : Dev nD) (t : Fin cfg0.N) (acc : Vec Ideal S4096x1 .f32) (j : S4096x1.Idx) :
    k0_pay1 (k0_pay4 (tile m c t) (wA m c t) (bA m c t) (wB m c t) (bB m c t)) (wC m c t) (bC m c t) (wD m c t) (bD m c t) acc j
      = acc j + addend m c t.val j := by
  have hN : t.val < 128 := lt_of_lt_of_eq t.isLt (show cfg0.N = 128 from N_0)
  obtain ⟨y, z, rfl⟩ : ∃ (y : Fin 4096) (z : Fin 1), j = ix2 y z := ⟨j 0, j 1, eq_ix2 j⟩
  have hz : z = 0 := Subsingleton.elim _ _
  subst hz
  rw [pay1_apply (k0_pay4 (tile m c t) (wA m c t) (bA m c t) (wB m c t) (bB m c t)) (wC m c t) (bC m c t) (wD m c t) (bD m c t) acc y 0,
    pay4_eq (tile m c t) (wA m c t) (bA m c t) (wB m c t) (bB m c t)]
  refine congrArg (acc (ix2 y (0 : Fin 1)) + ·) ?_
  have hrow := rowC m c t ⟨t.val % 8, Nat.mod_lt _ (by decide)⟩ y ⟨4096 * (t.val / 8) + y.val, by have := y.isLt; omega⟩ rfl rfl
  unfold addend
  rw [dif_pos hN]
  unfold readout
  refine congrArg₂ (· + ·) (Finset.sum_congr rfl fun k _ => congrArg₂ (· * ·) (congrFun hrow k) ?_) ?_
  · exact wD_apply m c t ⟨t.val % 8, Nat.mod_lt _ (by decide)⟩ rfl 0 0 k
  · exact bD_apply m c t ⟨t.val % 8, Nat.mod_lt _ (by decide)⟩ rfl 0 0 0

/-! ## A tile's eight points folded -/

/-- The block a tile's last point writes back: the logistic function of zero plus the eight points' addends. -/
theorem fold_apply (c : Dev nD) (q : ℕ) (h : 8 * q + 7 < cfg0.N) (j : S4096x1.Idx) :
    Pipeline.accAt (Value.reset9 m c) (Value.step9 m c) (8 * q) 7 h j
      = Ideal.logistic (0 + ∑ s ∈ Finset.range 8, addend m c (8 * q + s) j) := by
  have ha : ∀ (h0 : 8 * q < cfg0.N) (i : S4096x1.Idx), Value.reset9 m c (8 * q) h0 i = (fun _ => (0 : EReal)) i + addend m c (8 * q) i := by
    intro h0 i
    have e := pay_point m c ⟨8 * q, h0⟩ (k0_pay3 (F := Ideal)) i
    rw [pay3_apply] at e
    exact e
  have hg : ∀ (n : ℕ) (hn : n < cfg0.N) (acc : S4096x1.Idx → EReal) (i : S4096x1.Idx), 8 * q < n → n ≤ 8 * q + 6 →
      Value.step9 m c n hn acc i = acc i + addend m c n i := by
    intro n hn acc i h1 h2
    unfold Value.step9
    rw [if_pos ⟨by omega, by omega⟩]
    exact pay_point m c ⟨n, hn⟩ acc i
  rw [Pipeline.accAt_succ]
  have hlast : ∀ acc : Vec Ideal S4096x1 .f32, Value.step9 m c (8 * q + (6 + 1)) h acc
      = k0_pay2 (k0_pay1 (k0_pay4 (tile m c ⟨8 * q + (6 + 1), h⟩) (wA m c ⟨8 * q + (6 + 1), h⟩) (bA m c ⟨8 * q + (6 + 1), h⟩)
          (wB m c ⟨8 * q + (6 + 1), h⟩) (bB m c ⟨8 * q + (6 + 1), h⟩)) (wC m c ⟨8 * q + (6 + 1), h⟩) (bC m c ⟨8 * q + (6 + 1), h⟩)
          (wD m c ⟨8 * q + (6 + 1), h⟩) (bD m c ⟨8 * q + (6 + 1), h⟩) acc) := by
    intro acc
    unfold Value.step9
    rw [if_neg (by omega), if_pos ⟨by omega, by omega⟩]
  rw [hlast, pay2_apply, pay_point m c ⟨8 * q + (6 + 1), h⟩,
    Pipeline.accAt_add_apply (Value.reset9 m c) (Value.step9 m c) (fun _ => (0 : EReal)) (addend m c) (8 * q) 6 ha hg 6 le_rfl _ j,
    Finset.sum_range_succ _ 7, add_assoc]

/-! ## The array after the run -/

/-- The generated closed form of the result array is the specification over the argument arrays. -/
theorem G9_eq (c : Dev nD) :
    Value.G9 m c = result (inB m c) (inW1 m c) (inb1 m c) (inW2 m c) (inb2 m c) (inW3 m c) (inb3 m c) (inW4 m c) (inb4 m c) := by
  funext i
  have hi0 : (i 0).val < 65536 := (i 0).isLt
  have hi1 : (i 1).val < 1 := (i 1).isLt
  have hN : cfg0.N = 128 := N_0
  have hr : Value.run9Of i = (i 0).val / 4096 := by
    show 1 * ((i 0).val / 4096 - 0) + 1 * ((i 1).val / 1 - 0) = _
    omega
  unfold Value.G9
  rw [dif_pos (by rw [hr, hN]; omega)]
  have e : ∀ (b : ℕ) (h : b + 7 < cfg0.N) (q : ℕ) (h' : 8 * q + 7 < cfg0.N), b = 8 * q →
      Pipeline.accAt (Value.reset9 m c) (Value.step9 m c) b 7 h = Pipeline.accAt (Value.reset9 m c) (Value.step9 m c) (8 * q) 7 h' := by
    intro b h q h' hb; subst hb; rfl
  rw [e _ _ ((i 0).val / 4096) (by rw [hN]; omega) (by rw [hr]), fold_apply]
  unfold result
  refine congrArg (fun x => Ideal.logistic (0 + x)) ?_
  rw [Finset.sum_range]
  refine Finset.sum_congr rfl fun s _ => ?_
  have hs : s.val < 8 := s.isLt
  unfold addend
  rw [dif_pos (by omega)]
  congr 1
  · apply Fin.ext
    show (8 * ((i 0).val / 4096) + s.val) % 8 = s.val
    omega
  · apply Fin.ext
    show 4096 * ((8 * ((i 0).val / 4096) + s.val) / 8) + (i 0).val % 4096 = (i 0).val
    omega

end Cert.KernelIdeal.Fold

end
-- ==== Proof.lean ====
/-
  A per-species multilayer perceptron summed over species, then the logistic function.

  The kernel walks a 16 × 8 grid: for each tile of 4096 batch rows it visits the eight species in turn, sends the tile
  through that species' three rectified hidden layers and its one-unit read-out, and accumulates the read-outs in the
  tile's output block (zeroed at the first species, passed through the logistic function after the last).  The
  reference does the same with four batched matrix products over all species at once, a sum over the species axis and
  1 / (1 + exp (−·)).  Over the extended reals both compute `Cert.Mlp.result`: narrowing to bfloat16 is the
  identity, a matrix product into zero is the plain sum over the contracted axis, adding the species one after the
  other from zero is the sum over the species (addition of extended reals is associative), and the logistic function
  is 1 / (1 + exp (−·)).  No step needs the inputs to be finite.

  `Cert.KernelIdeal.Fold.G9_eq` reads the kernel's result array as the specification, `Cert.ReferenceIdeal.Spec.stage_result`
  the reference's; the frames are the runs with the result dropped.
-/
import proofs.«138767_j53979148976569_1_alg».proof.Defs
import proofs.«138767_j53979148976569_1_alg».proof.Proof.Gen.Kernel.Frame
import proofs.«138767_j53979148976569_1_alg».proof.Proof.Gen.KernelIdeal.Value
import proofs.«138767_j53979148976569_1_alg».proof.Proof.Gen.Pre_finite_inputs
import proofs.«138767_j53979148976569_1_alg».proof.Proof.Gen.ReferenceIdeal.Run
import proofs.«138767_j53979148976569_1_alg».proof.Proof.Gen.ReferenceIdeal.Read
import proofs.«138767_j53979148976569_1_alg».proof.Proof.RefReads
import proofs.«138767_j53979148976569_1_alg».proof.Proof.BlockFold
import Idealize.ShloMosaic.Adequacy
import Idealize.ShloMosaic.Init

noncomputable section

namespace Cert.Proof

open Idealize.ShloMosaic Idealize.SL.Sem

/-- The idealized kernel terminates without a fault and leaves its arguments as they were: its value run, the result dropped. -/
theorem frame_KernelIdeal : frame_KernelIdeal := fun m ρ _ =>
  (θ_run Cert.KernelIdeal.defs _ _).mono (fun _ h c => (h c).2) (Cert.KernelIdeal.Value.run (F := Ideal) m ρ)

/-- The same for the idealized reference. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on the nine arguments both programs end with the specification's array of those arguments. -/
theorem algebraic_KernelIdeal_ReferenceIdeal : algebraic_KernelIdeal_ReferenceIdeal := by
  intro m ρ m' ρ' _ hagree
  refine ⟨fun c => Cert.KernelIdeal.Value.G9 m c, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Value.G9 m c
  obtain ⟨a0, a1, a2, a3, a4, a5, a6, a7, a8⟩ := hagree c
  rw [Cert.ReferenceIdeal.Read.val_main_v37_eq, Cert.ReferenceIdeal.Spec.stage_result, Cert.KernelIdeal.Fold.G9_eq,
    a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
